-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S256x2048 : Shape := ⟨2, ![256, 2048]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 18
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S8192x2048, .bf16⟩
  | .hbm, ⟨13, _⟩ => ⟨S2048x4096, .f32⟩
  | .hbm, ⟨14, _⟩ => ⟨S2048x4096, .bf16⟩
  | .hbm, ⟨15, _⟩ => ⟨S4096, .f32⟩
  | .hbm, ⟨16, _⟩ => ⟨S8192x1024, .f32⟩
  | .hbm, ⟨17, _⟩ => ⟨S8192x1024, .f32⟩
  | .local _ .vmem, ⟨0, _⟩ => ⟨S256x2048, .bf16⟩
  | .local _ .vmem, ⟨1, _⟩ => ⟨S256x2048, .bf16⟩
  | .local _ .vmem, ⟨2, _⟩ => ⟨S2048x4096, .bf16⟩
  | .local _ .vmem, ⟨3, _⟩ => ⟨S4096, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S8192x1024_S8192x1024_S8192x2048_d1 : Shape.Concatenates [S8192x1024, S8192x1024] S8192x2048 1
  bitsLt_bf16_f32 : FTy.bits .bf16 < FTy.bits .f32
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S256x1024_S256x1024_0_0 : ∀ a, (![0, 0] : Fin 2 → Nat) a + S256x1024.size a ≤ S256x1024.size a
  h_S256x1024 : 0 < S256x1024.numel
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.BitsCell.lean ====
/-
  The program up to and through its one launch, at any float instance.

  Before the launch five host lines build the launch's operands from the eleven arguments: the row-wise join
  [h | x] and its rounding, the column-wise join of the four weight matrices and its rounding, and the join of
  the four bias vectors. None of them writes an argument, so the launch finds every argument as it was given.
  The launch runs the cell's body at 32 points; at a point it reads a 256-row block of the joined input, the whole
  joined weight matrix, the whole joined bias and a 256-row block of the cell state, and writes one 256-row block
  of each result. What the body leaves in a result's block is one store over the whole block, so the block after
  the body is that store's value, a pure function of the four blocks read.
-/
import proofs.«177262_j39599598469282_1_alg».proof.Proof.Gen.Kernel.Launch
import proofs.«177262_j39599598469282_1_alg».proof.Proof.Gen.Kernel.Skeleton
import proofs.«177262_j39599598469282_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the launch finds them -/

/-- Core `c`'s buffers when the launch begins: the given memory after the five host lines. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- The program is its host lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the five the host lines write is found as it was given. -/
theorem V_kept (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether the point fetched it or the block
    index stood still since an earlier fetch (the joined weights and bias are fetched once, at the first point). One
    statement per input window: a window's block type is its uncut block only at a literal window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rIn : Rect S256x2048 := Rect.unit (s := S256x2048) ![0, 0] S256x2048.size inb_S256x2048_S256x2048_0_0
abbrev rWt : Rect S2048x4096 := Rect.unit (s := S2048x4096) ![0, 0] S2048x4096.size inb_S2048x4096_S2048x4096_0_0
abbrev rBias : Rect S4096 := Rect.unit (s := S4096) ![0] S4096.size inb_S4096_S4096_0
abbrev rOut : Rect S256x1024 := Rect.unit (s := S256x1024) ![0, 0] S256x1024.size inb_S256x1024_S256x1024_0_0

/-- The new hidden state's block after the body, from the four blocks read. -/
def hBlock (x0 : Vec F S256x2048 .bf16) (x1 : Vec F S2048x4096 .bf16) (x2 : Vec F S4096 .f32) (x3 : Vec F S256x1024 .f32) :
    Vec F S256x1024 .f32 :=
  View.canon [⟨rOut, k0_pay3 (View.ld x0 rIn) (View.ld x1 rWt) (View.ld x2 rBias) (View.ld x3 rOut)⟩]

/-- The new cell state's block after the body, from the four blocks read. -/
def cBlock (x0 : Vec F S256x2048 .bf16) (x1 : Vec F S2048x4096 .bf16) (x2 : Vec F S4096 .f32) (x3 : Vec F S256x1024 .f32) :
    Vec F S256x1024 .f32 :=
  View.canon [⟨rOut, k0_pay2 (View.ld x0 rIn) (View.ld x1 rWt) (View.ld x2 rBias) (View.ld x3 rOut)⟩]

/-- One store over the whole block covers it. -/
theorem cover_out (p0 : Vec F S256x1024 .f32) (y : S256x1024.Idx) :
    ∃ pc ∈ ([⟨rOut, p0⟩] : List (View.Piece (Elt F) S256x1024 .f32)), y ∈ pc.1.set :=
  View.cover_of_tiled [⟨rOut, p0⟩] S256x1024.size (by rfl) y

/-! ## The body's triple -/

set_option maxHeartbeats 2000000 in
/-- The body on whole buffers, the four inputs' at known contents and the two results' at anything, runs to a state
    holding the inputs' as they were and each result's at its one store's value. -/
theorem sound_kernel (c : Dev nD) (E : Set ℕ) (i : grid0.Coords)
    (arg1 : Memref sig .tc .vmem S256x2048 .bf16) (harg1 : arg1.IsWhole) (arg2 : Memref sig .tc .vmem S2048x4096 .bf16) (harg2 : arg2.IsWhole)
    (arg3 : Memref sig .tc .vmem S4096 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (x0 : Vec F S256x2048 .bf16) (x1 : Vec F S2048x4096 .bf16) (x2 : Vec F S4096 .f32) (x3 : Vec F S256x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (hBlock x0 x1 x2 x3)
            ∗ owns (c : Thread nD τ) arg6 fullShare (cBlock x0 x1 x2 x3)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  iexists _; isplitr
  swap; · iexact H5
  ipureintro
  exact View.read_writes_eq_canon _ _ _ (cover_out _)

/-! ## The proof data of the launch -/

/-- On core `c`: the arrays as the launch finds them; after the body at point `t` each input's buffer still at its
    block and each result's at its store's value of the four input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hBlock (iblk m c 0 t) (iblk m c 1 t) (iblk m c 2 t) (iblk m c 3 t)
    | ⟨5, _⟩ => cBlock (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = hBlock (iblk m c 0 t) (iblk m c 1 t) (iblk m c 2 t) (iblk m c 3 t) := by dsimp only [dats]
theorem after_5 (c : Dev nD) (t : Fin cfg0.N) :
    (dats m 0 c).after 5 t = cBlock (iblk m c 0 t) (iblk m c 1 t) (iblk m c 2 t) (iblk m c 3 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, with every array of the
    launch at what the write-backs leave and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arguments end as they were given -/

/-- An argument is none of the five buffers the host lines write. -/
theorem V_main_arg (c : Dev nD) (b : Ref sig .tc) (h0 : b ≠ main_v0) (h1 : b ≠ main_v1) (h2 : b ≠ main_v2) (h3 : b ≠ main_v3)
    (h4 : b ≠ main_v4) : V m c b = m ((c : Thread nD τ).loc b) := V_kept m c b h0 h1 h2 h3 h4

/-- From a run to the launch's post: the cell state's array, an input of the launch, ends at its entry contents;
    every other argument is no array of the launch and ends as the launch found it; and the launch found each as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg m c main_arg0 (by decide) (by decide) (by decide) (by decide) (by decide)),
      ((h c).2 main_arg1 (Pipeline.mem_restRefs_of main_arg1 (by decide) (by decide))).trans (V_main_arg m c main_arg1 (by decide) (by decide) (by decide) (by decide) (by decide)),
      ((h c).1 3).trans (((dats 0 c).arrAt_in 3 rfl _).trans ((hA c 3).trans (V_main_arg m c main_arg2 (by decide) (by decide) (by decide) (by decide) (by decide)))),
      ((h c).2 main_arg3 (Pipeline.mem_restRefs_of main_arg3 (by decide) (by decide))).trans (V_main_arg m c main_arg3 (by decide) (by decide) (by decide) (by decide) (by decide)),
      ((h c).2 main_arg4 (Pipeline.mem_restRefs_of main_arg4 (by decide) (by decide))).trans (V_main_arg m c main_arg4 (by decide) (by decide) (by decide) (by decide) (by decide)),
      ((h c).2 main_arg5 (Pipeline.mem_restRefs_of main_arg5 (by decide) (by decide))).trans (V_main_arg m c main_arg5 (by decide) (by decide) (by decide) (by decide) (by decide)),
      ((h c).2 main_arg6 (Pipeline.mem_restRefs_of main_arg6 (by decide) (by decide))).trans (V_main_arg m c main_arg6 (by decide) (by decide) (by decide) (by decide) (by decide)),
      ((h c).2 main_arg7 (Pipeline.mem_restRefs_of main_arg7 (by decide) (by decide))).trans (V_main_arg m c main_arg7 (by decide) (by decide) (by decide) (by decide) (by decide)),
      ((h c).2 main_arg8 (Pipeline.mem_restRefs_of main_arg8 (by decide) (by decide))).trans (V_main_arg m c main_arg8 (by decide) (by decide) (by decide) (by decide) (by decide)),
      ((h c).2 main_arg9 (Pipeline.mem_restRefs_of main_arg9 (by decide) (by decide))).trans (V_main_arg m c main_arg9 (by decide) (by decide) (by decide) (by decide) (by decide)),
      ((h c).2 main_arg10 (Pipeline.mem_restRefs_of main_arg10 (by decide) (by decide))).trans (V_main_arg m c main_arg10 (by decide) (by decide) (by decide) (by decide) (by decide))⟩) h

/-- The frame: the program runs to the end without fault and every argument ends as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Cell

end
-- ==== Proof.IdealCell.lean ====
/-
  The program up to and through its one launch, at any float instance.

  Before the launch five host lines build the launch's operands from the eleven arguments: the row-wise join
  [h | x] and its rounding, the column-wise join of the four weight matrices and its rounding, and the join of
  the four bias vectors. None of them writes an argument, so the launch finds every argument as it was given.
  The launch runs the cell's body at 32 points; at a point it reads a 256-row block of the joined input, the whole
  joined weight matrix, the whole joined bias and a 256-row block of the cell state, and writes one 256-row block
  of each result. What the body leaves in a result's block is one store over the whole block, so the block after
  the body is that store's value, a pure function of the four blocks read.
-/
import proofs.«177262_j39599598469282_1_alg».proof.Proof.Gen.KernelIdeal.Launch
import proofs.«177262_j39599598469282_1_alg».proof.Proof.Gen.KernelIdeal.Skeleton
import proofs.«177262_j39599598469282_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the launch finds them -/

/-- Core `c`'s buffers when the launch begins: the given memory after the five host lines. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- The program is its host lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the five the host lines write is found as it was given. -/
theorem V_kept (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether the point fetched it or the block
    index stood still since an earlier fetch (the joined weights and bias are fetched once, at the first point). One
    statement per input window: a window's block type is its uncut block only at a literal window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rIn : Rect S256x2048 := Rect.unit (s := S256x2048) ![0, 0] S256x2048.size inb_S256x2048_S256x2048_0_0
abbrev rWt : Rect S2048x4096 := Rect.unit (s := S2048x4096) ![0, 0] S2048x4096.size inb_S2048x4096_S2048x4096_0_0
abbrev rBias : Rect S4096 := Rect.unit (s := S4096) ![0] S4096.size inb_S4096_S4096_0
abbrev rOut : Rect S256x1024 := Rect.unit (s := S256x1024) ![0, 0] S256x1024.size inb_S256x1024_S256x1024_0_0

/-- The new hidden state's block after the body, from the four blocks read. -/
def hBlock (x0 : Vec F S256x2048 .bf16) (x1 : Vec F S2048x4096 .bf16) (x2 : Vec F S4096 .f32) (x3 : Vec F S256x1024 .f32) :
    Vec F S256x1024 .f32 :=
  View.canon [⟨rOut, k0_pay3 (View.ld x0 rIn) (View.ld x1 rWt) (View.ld x2 rBias) (View.ld x3 rOut)⟩]

/-- The new cell state's block after the body, from the four blocks read. -/
def cBlock (x0 : Vec F S256x2048 .bf16) (x1 : Vec F S2048x4096 .bf16) (x2 : Vec F S4096 .f32) (x3 : Vec F S256x1024 .f32) :
    Vec F S256x1024 .f32 :=
  View.canon [⟨rOut, k0_pay2 (View.ld x0 rIn) (View.ld x1 rWt) (View.ld x2 rBias) (View.ld x3 rOut)⟩]

/-- One store over the whole block covers it. -/
theorem cover_out (p0 : Vec F S256x1024 .f32) (y : S256x1024.Idx) :
    ∃ pc ∈ ([⟨rOut, p0⟩] : List (View.Piece (Elt F) S256x1024 .f32)), y ∈ pc.1.set :=
  View.cover_of_tiled [⟨rOut, p0⟩] S256x1024.size (by rfl) y

/-! ## The body's triple -/

set_option maxHeartbeats 2000000 in
/-- The body on whole buffers, the four inputs' at known contents and the two results' at anything, runs to a state
    holding the inputs' as they were and each result's at its one store's value. -/
theorem sound_kernel (c : Dev nD) (E : Set ℕ) (i : grid0.Coords)
    (arg1 : Memref sig .tc .vmem S256x2048 .bf16) (harg1 : arg1.IsWhole) (arg2 : Memref sig .tc .vmem S2048x4096 .bf16) (harg2 : arg2.IsWhole)
    (arg3 : Memref sig .tc .vmem S4096 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (x0 : Vec F S256x2048 .bf16) (x1 : Vec F S2048x4096 .bf16) (x2 : Vec F S4096 .f32) (x3 : Vec F S256x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (hBlock x0 x1 x2 x3)
            ∗ owns (c : Thread nD τ) arg6 fullShare (cBlock x0 x1 x2 x3)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  iexists _; isplitr
  swap; · iexact H5
  ipureintro
  exact View.read_writes_eq_canon _ _ _ (cover_out _)

/-! ## The proof data of the launch -/

/-- On core `c`: the arrays as the launch finds them; after the body at point `t` each input's buffer still at its
    block and each result's at its store's value of the four input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hBlock (iblk m c 0 t) (iblk m c 1 t) (iblk m c 2 t) (iblk m c 3 t)
    | ⟨5, _⟩ => cBlock (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = hBlock (iblk m c 0 t) (iblk m c 1 t) (iblk m c 2 t) (iblk m c 3 t) := by dsimp only [dats]
theorem after_5 (c : Dev nD) (t : Fin cfg0.N) :
    (dats m 0 c).after 5 t = cBlock (iblk m c 0 t) (iblk m c 1 t) (iblk m c 2 t) (iblk m c 3 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, with every array of the
    launch at what the write-backs leave and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arguments end as they were given -/

/-- An argument is none of the five buffers the host lines write. -/
theorem V_main_arg (c : Dev nD) (b : Ref sig .tc) (h0 : b ≠ main_v0) (h1 : b ≠ main_v1) (h2 : b ≠ main_v2) (h3 : b ≠ main_v3)
    (h4 : b ≠ main_v4) : V m c b = m ((c : Thread nD τ).loc b) := V_kept m c b h0 h1 h2 h3 h4

/-- From a run to the launch's post: the cell state's array, an input of the launch, ends at its entry contents;
    every other argument is no array of the launch and ends as the launch found it; and the launch found each as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg m c main_arg0 (by decide) (by decide) (by decide) (by decide) (by decide)),
      ((h c).2 main_arg1 (Pipeline.mem_restRefs_of main_arg1 (by decide) (by decide))).trans (V_main_arg m c main_arg1 (by decide) (by decide) (by decide) (by decide) (by decide)),
      ((h c).1 3).trans (((dats 0 c).arrAt_in 3 rfl _).trans ((hA c 3).trans (V_main_arg m c main_arg2 (by decide) (by decide) (by decide) (by decide) (by decide)))),
      ((h c).2 main_arg3 (Pipeline.mem_restRefs_of main_arg3 (by decide) (by decide))).trans (V_main_arg m c main_arg3 (by decide) (by decide) (by decide) (by decide) (by decide)),
      ((h c).2 main_arg4 (Pipeline.mem_restRefs_of main_arg4 (by decide) (by decide))).trans (V_main_arg m c main_arg4 (by decide) (by decide) (by decide) (by decide) (by decide)),
      ((h c).2 main_arg5 (Pipeline.mem_restRefs_of main_arg5 (by decide) (by decide))).trans (V_main_arg m c main_arg5 (by decide) (by decide) (by decide) (by decide) (by decide)),
      ((h c).2 main_arg6 (Pipeline.mem_restRefs_of main_arg6 (by decide) (by decide))).trans (V_main_arg m c main_arg6 (by decide) (by decide) (by decide) (by decide) (by decide)),
      ((h c).2 main_arg7 (Pipeline.mem_restRefs_of main_arg7 (by decide) (by decide))).trans (V_main_arg m c main_arg7 (by decide) (by decide) (by decide) (by decide) (by decide)),
      ((h c).2 main_arg8 (Pipeline.mem_restRefs_of main_arg8 (by decide) (by decide))).trans (V_main_arg m c main_arg8 (by decide) (by decide) (by decide) (by decide) (by decide)),
      ((h c).2 main_arg9 (Pipeline.mem_restRefs_of main_arg9 (by decide) (by decide))).trans (V_main_arg m c main_arg9 (by decide) (by decide) (by decide) (by decide) (by decide)),
      ((h c).2 main_arg10 (Pipeline.mem_restRefs_of main_arg10 (by decide) (by decide))).trans (V_main_arg m c main_arg10 (by decide) (by decide) (by decide) (by decide) (by decide))⟩) h

/-- The frame: the program runs to the end without fault and every argument ends as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Cell

end
-- ==== Proof.Spec.lean ====
/-
  The cell, entry by entry, on the extended reals.

  With [h | x] an R-row, 2048-column array, W the 2048 × 4096 array of the four weight matrices side by side and
  b the 4096 biases, the pre-activation of gate column k in row r is

      pre r k = (∑ κ < 2048, [h | x] (r, κ) · W (κ, k)) + b k.

  Columns 0..1023 are the forget gate, 1024..2047 the input gate, 2048..3071 the candidate and 3072..4095 the
  output gate. With σ the logistic function,

      c' (r, j) = σ (pre r j) · c (r, j) + σ (pre r (1024 + j)) · tanh (pre r (2048 + j)),
      h' (r, j) = σ (pre r (3072 + j)) · tanh (c' (r, j)).

  Both depend on row r of [h | x] and of c only; so a block of rows, read as an array of fewer rows, gives the
  same entries as the whole array at those rows.
-/
import Idealize.ShloMosaic.Lib.ValueIdx
import Idealize.ShloMosaic.PureOps.Ideal

noncomputable section

namespace Cert.LstmCell

open Idealize.ShloMosaic Idealize.ShloMosaic.ValueIdx

variable {R R' : ℕ} {φ₁ φ₂ : FTy}

/-- Gate `g`'s column `j` among the 4096 joined columns. -/
abbrev col (g : Fin 4) (j : Fin 1024) : Fin 4096 := ⟨g.val * 1024 + j.val, by omega⟩

/-- The pre-activation of joined column `k` in row `r`. -/
def pre (hx : FVec Ideal ⟨2, ![R, 2048]⟩ φ₁) (w : FVec Ideal ⟨2, ![2048, 4096]⟩ φ₂) (b : FVec Ideal ⟨1, ![4096]⟩ .f32)
    (r : Fin R) (k : Fin 4096) : EReal :=
  (∑ κ : Fin 2048, hx (ix2 r κ) * w (ix2 κ k)) + b (ix1 k)

/-- The new cell state at (r, j). -/
def cNext (hx : FVec Ideal ⟨2, ![R, 2048]⟩ φ₁) (w : FVec Ideal ⟨2, ![2048, 4096]⟩ φ₂) (b : FVec Ideal ⟨1, ![4096]⟩ .f32)
    (c : FVec Ideal ⟨2, ![R, 1024]⟩ .f32) (r : Fin R) (j : Fin 1024) : EReal :=
  Ideal.logistic (pre hx w b r (col 0 j)) * c (ix2 r j)
    + Ideal.logistic (pre hx w b r (col 1 j)) * Ideal.tanh (pre hx w b r (col 2 j))

/-- The new hidden state at (r, j). -/
def hNext (hx : FVec Ideal ⟨2, ![R, 2048]⟩ φ₁) (w : FVec Ideal ⟨2, ![2048, 4096]⟩ φ₂) (b : FVec Ideal ⟨1, ![4096]⟩ .f32)
    (c : FVec Ideal ⟨2, ![R, 1024]⟩ .f32) (r : Fin R) (j : Fin 1024) : EReal :=
  Ideal.logistic (pre hx w b r (col 3 j)) * Ideal.tanh (cNext hx w b c r j)

/-- The two new states as whole arrays. -/
def cArr (hx : FVec Ideal ⟨2, ![R, 2048]⟩ φ₁) (w : FVec Ideal ⟨2, ![2048, 4096]⟩ φ₂) (b : FVec Ideal ⟨1, ![4096]⟩ .f32)
    (c : FVec Ideal ⟨2, ![R, 1024]⟩ .f32) : FVec Ideal ⟨2, ![R, 1024]⟩ .f32 := fun i => cNext hx w b c (i 0) (i 1)
def hArr (hx : FVec Ideal ⟨2, ![R, 2048]⟩ φ₁) (w : FVec Ideal ⟨2, ![2048, 4096]⟩ φ₂) (b : FVec Ideal ⟨1, ![4096]⟩ .f32)
    (c : FVec Ideal ⟨2, ![R, 1024]⟩ .f32) : FVec Ideal ⟨2, ![R, 1024]⟩ .f32 := fun i => hNext hx w b c (i 0) (i 1)

/-! ## A row depends on that row only -/

variable {hx : FVec Ideal ⟨2, ![R, 2048]⟩ φ₁} {hx' : FVec Ideal ⟨2, ![R', 2048]⟩ φ₁}
  {w w' : FVec Ideal ⟨2, ![2048, 4096]⟩ φ₂} {b b' : FVec Ideal ⟨1, ![4096]⟩ .f32}
  {c : FVec Ideal ⟨2, ![R, 1024]⟩ .f32} {c' : FVec Ideal ⟨2, ![R', 1024]⟩ .f32} {r : Fin R} {r' : Fin R'}

/-- Equal rows of [h | x], equal weights and equal biases, entry by entry, give equal pre-activations. -/
theorem pre_congr (hrow : ∀ κ : Fin 2048, hx (ix2 r κ) = hx' (ix2 r' κ))
    (hw : ∀ (κ : Fin 2048) (k : Fin 4096), w (ix2 κ k) = w' (ix2 κ k)) (hb : ∀ k : Fin 4096, b (ix1 k) = b' (ix1 k))
    (k : Fin 4096) : pre hx w b r k = pre hx' w' b' r' k := by
  unfold pre
  rw [hb k]
  exact congrArg (· + b' (ix1 k)) (Finset.sum_congr rfl fun κ _ => by rw [hrow κ, hw κ k])

theorem cNext_congr (hrow : ∀ κ : Fin 2048, hx (ix2 r κ) = hx' (ix2 r' κ))
    (hw : ∀ (κ : Fin 2048) (k : Fin 4096), w (ix2 κ k) = w' (ix2 κ k)) (hb : ∀ k : Fin 4096, b (ix1 k) = b' (ix1 k))
    (j : Fin 1024) (hc : c (ix2 r j) = c' (ix2 r' j)) : cNext hx w b c r j = cNext hx' w' b' c' r' j := by
  unfold cNext
  rw [pre_congr hrow hw hb, pre_congr hrow hw hb, pre_congr hrow hw hb, hc]

theorem hNext_congr (hrow : ∀ κ : Fin 2048, hx (ix2 r κ) = hx' (ix2 r' κ))
    (hw : ∀ (κ : Fin 2048) (k : Fin 4096), w (ix2 κ k) = w' (ix2 κ k)) (hb : ∀ k : Fin 4096, b (ix1 k) = b' (ix1 k))
    (j : Fin 1024) (hc : c (ix2 r j) = c' (ix2 r' j)) : hNext hx w b c r j = hNext hx' w' b' c' r' j := by
  unfold hNext
  rw [pre_congr hrow hw hb, cNext_congr hrow hw hb j hc]

/-! ## The cell over the eleven arguments

The program's arguments are x, h, c, then weight matrix and bias of the forget, input, candidate and output gates.
[h | x] joins h and x along the columns; the four weight matrices are joined along the columns and the four
biases end to end. -/

abbrev SBH : Shape := ⟨2, ![8192, 1024]⟩
abbrev SWt : Shape := ⟨2, ![2048, 1024]⟩
abbrev SBi : Shape := ⟨1, ![1024]⟩

theorem cat_rows : Shape.Concatenates [SBH, SBH] ⟨2, ![8192, 2048]⟩ 1 := by decide
theorem cat_weights : Shape.Concatenates [SWt, SWt, SWt, SWt] ⟨2, ![2048, 4096]⟩ 1 := by decide
theorem cat_bias : Shape.Concatenates [SBi, SBi, SBi, SBi] ⟨1, ![4096]⟩ 0 := by decide

def joinRows (h x : FVec Ideal SBH .f32) : FVec Ideal ⟨2, ![8192, 2048]⟩ .f32 :=
  concatenate ⟨2, ![8192, 2048]⟩ 1 [⟨SBH, h⟩, ⟨SBH, x⟩] cat_rows

def joinWeights (wf wi wc wo : FVec Ideal SWt .f32) : FVec Ideal ⟨2, ![2048, 4096]⟩ .f32 :=
  concatenate ⟨2, ![2048, 4096]⟩ 1 [⟨SWt, wf⟩, ⟨SWt, wi⟩, ⟨SWt, wc⟩, ⟨SWt, wo⟩] cat_weights

def joinBias (bf bi bc bo : FVec Ideal SBi .f32) : FVec Ideal ⟨1, ![4096]⟩ .f32 :=
  concatenate ⟨1, ![4096]⟩ 0 [⟨SBi, bf⟩, ⟨SBi, bi⟩, ⟨SBi, bc⟩, ⟨SBi, bo⟩] cat_bias

/-- The new hidden state of the whole batch. -/
def hResult (x h c : FVec Ideal SBH .f32) (wf : FVec Ideal SWt .f32) (bf : FVec Ideal SBi .f32) (wi : FVec Ideal SWt .f32)
    (bi : FVec Ideal SBi .f32) (wc : FVec Ideal SWt .f32) (bc : FVec Ideal SBi .f32) (wo : FVec Ideal SWt .f32)
    (bo : FVec Ideal SBi .f32) : FVec Ideal SBH .f32 :=
  hArr (φ₁ := .f32) (φ₂ := .f32) (joinRows h x) (joinWeights wf wi wc wo) (joinBias bf bi bc bo) c

/-- The new cell state of the whole batch. -/
def cResult (x h c : FVec Ideal SBH .f32) (wf : FVec Ideal SWt .f32) (bf : FVec Ideal SBi .f32) (wi : FVec Ideal SWt .f32)
    (bi : FVec Ideal SBi .f32) (wc : FVec Ideal SWt .f32) (bc : FVec Ideal SBi .f32) (wo : FVec Ideal SWt .f32)
    (bo : FVec Ideal SBi .f32) : FVec Ideal SBH .f32 :=
  cArr (φ₁ := .f32) (φ₂ := .f32) (joinRows h x) (joinWeights wf wi wc wo) (joinBias bf bi bc bo) c

end Cert.LstmCell

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.IdealBody.lean ====
/-
  What the body's two stores hold, entry by entry, on the extended reals.

  At a point the body reads a 256-row block X of [h | x], the whole joined weights W, the joined biases b and a
  256-row block C of the cell state. Its product of X and W into a zero accumulator is, at (p, k), the sum over the
  2048 contraction positions; the biases are laid out as one row and repeated down the 256 rows, so adding them adds
  b k; the four gates are the four 1024-column slices. Hence the value stored as the new cell state is c' of
  (X, W, b, C) read as a 256-row cell, and the value stored as the new hidden state is h' of the same.
-/
import proofs.«177262_j39599598469282_1_alg».proof.Proof.Gen.KernelIdeal.Skeleton
import proofs.«177262_j39599598469282_1_alg».proof.Proof.Spec
import proofs.«177262_j39599598469282_1_alg».proof.Proof.LibPlainDot
import Idealize.ShloMosaic.Lib.ValueLayout
import Idealize.ShloMosaic.Lib.Pipeline.Value
import Idealize.ShloMosaic.PureOps.Ideal.Laws

noncomputable section

namespace Cert.KernelIdeal.CellValue

open Idealize.ShloMosaic Idealize.ShloMosaic.ValueIdx Cert.KernelIdeal Cert.KernelIdeal.Gen Cert.LstmCell

/-- The body's product is a plain one: rows from the left, columns from the right, one contracted axis. -/
theorem dot_plain : Cert.PlainDot.Plain dot_S256x2048_S2048x4096_S256x4096_1_0_0_1_n_n := ⟨rfl, rfl, rfl, rfl, rfl, rfl⟩

/-- The pre-activations the body computes, at (p, k). -/
theorem pay1_apply (x0 : Vec Ideal S256x2048 .bf16) (x1 : Vec Ideal S2048x4096 .bf16) (x2 : Vec Ideal S4096 .f32)
    (p : Fin 256) (k : Fin 4096) :
    k0_pay1 (F := Ideal) x0 x1 x2 (ix2 p k) = pre (φ₁ := .bf16) (φ₂ := .bf16) x0 x1 x2 p k := by
  unfold k0_pay1 pre
  rw [addf_apply, shapeCast_self, shapeCast_self, shapeCast_self,
    Cert.PlainDot.matmul_zero_apply dot_plain rfl rfl, broadcastTo_1b_ab_apply, shapeCast_a_1a_apply]

/-- The gate slices: gate `g`'s slice at (p, j) is the pre-activation at column `g · 1024 + j`. -/
theorem gate0 (X : FVec Ideal S256x4096 .f32) (p : Fin 256) (j : Fin 1024) :
    extractStridedSlice S256x1024 ![0, 0] X slices_S256x4096_o0_0_S256x1024 (ix2 p j) = X (ix2 p (col 0 j)) :=
  slice2_axis1_apply 0 X _ p j (col 0 j) (by show 0 * 1024 + j.val = 0 + j.val; omega)
theorem gate1 (X : FVec Ideal S256x4096 .f32) (p : Fin 256) (j : Fin 1024) :
    extractStridedSlice S256x1024 ![0, 1024] X slices_S256x4096_o0_1024_S256x1024 (ix2 p j) = X (ix2 p (col 1 j)) :=
  slice2_axis1_apply 1024 X _ p j (col 1 j) (by show 1 * 1024 + j.val = 1024 + j.val; omega)
theorem gate2 (X : FVec Ideal S256x4096 .f32) (p : Fin 256) (j : Fin 1024) :
    extractStridedSlice S256x1024 ![0, 2048] X slices_S256x4096_o0_2048_S256x1024 (ix2 p j) = X (ix2 p (col 2 j)) :=
  slice2_axis1_apply 2048 X _ p j (col 2 j) (by show 2 * 1024 + j.val = 2048 + j.val; omega)
theorem gate3 (X : FVec Ideal S256x4096 .f32) (p : Fin 256) (j : Fin 1024) :
    extractStridedSlice S256x1024 ![0, 3072] X slices_S256x4096_o0_3072_S256x1024 (ix2 p j) = X (ix2 p (col 3 j)) :=
  slice2_axis1_apply 3072 X _ p j (col 3 j) (by show 3 * 1024 + j.val = 3072 + j.val; omega)

/-- The value stored as the new cell state, at (p, j). -/
theorem pay2_apply (x0 : Vec Ideal S256x2048 .bf16) (x1 : Vec Ideal S2048x4096 .bf16) (x2 : Vec Ideal S4096 .f32)
    (x3 : Vec Ideal S256x1024 .f32) (p : Fin 256) (j : Fin 1024) :
    k0_pay2 (F := Ideal) x0 x1 x2 x3 (ix2 p j) = cNext (φ₁ := .bf16) (φ₂ := .bf16) x0 x1 x2 x3 p j := by
  unfold k0_pay2 cNext
  rw [addf_apply, mulf_apply, mulf_apply]
  show Ideal.logistic (extractStridedSlice S256x1024 ![0, 0] (k0_pay1 x0 x1 x2) slices_S256x4096_o0_0_S256x1024 (ix2 p j)) * x3 (ix2 p j)
      + Ideal.logistic (extractStridedSlice S256x1024 ![0, 1024] (k0_pay1 x0 x1 x2) slices_S256x4096_o0_1024_S256x1024 (ix2 p j))
        * Ideal.tanh (extractStridedSlice S256x1024 ![0, 2048] (k0_pay1 x0 x1 x2) slices_S256x4096_o0_2048_S256x1024 (ix2 p j)) = _
  rw [gate0, gate1, gate2, pay1_apply, pay1_apply, pay1_apply]

/-- The value stored as the new hidden state, at (p, j). -/
theorem pay3_apply (x0 : Vec Ideal S256x2048 .bf16) (x1 : Vec Ideal S2048x4096 .bf16) (x2 : Vec Ideal S4096 .f32)
    (x3 : Vec Ideal S256x1024 .f32) (p : Fin 256) (j : Fin 1024) :
    k0_pay3 (F := Ideal) x0 x1 x2 x3 (ix2 p j) = hNext (φ₁ := .bf16) (φ₂ := .bf16) x0 x1 x2 x3 p j := by
  unfold k0_pay3 hNext
  rw [mulf_apply]
  show Ideal.logistic (extractStridedSlice S256x1024 ![0, 3072] (k0_pay1 x0 x1 x2) slices_S256x4096_o0_3072_S256x1024 (ix2 p j))
      * Ideal.tanh (k0_pay2 x0 x1 x2 x3 (ix2 p j)) = _
  rw [gate3, pay1_apply, pay2_apply]

end Cert.KernelIdeal.CellValue

end
-- ==== Proof.IdealValue.lean ====
/-
  The idealized program's two results as whole arrays.

  Point t of the 32 reads rows 256·t .. 256·t + 255 of [h | x] and of the cell state, and all of the joined weights
  and biases; what it writes back to a result is that result's block of 256 rows, whose entry (p, j) is the cell's
  value at row 256·t + p and column j, since the cell's value at a row depends on that row only. The 32 blocks of 256
  rows tile the 8192 rows, so after the run each result is the cell's value of the launch's four operands, and those
  are, entry by entry, the joined arguments: rounding to a narrower format is the identity on the extended reals.
-/
import proofs.«177262_j39599598469282_1_alg».proof.Proof.IdealCell
import proofs.«177262_j39599598469282_1_alg».proof.Proof.IdealBody
import Idealize.ShloMosaic.Lib.Pipeline.Value
import Idealize.ShloMosaic.Lib.StableHlo.Run

set_option maxRecDepth 16384

noncomputable section

namespace Cert.KernelIdeal.CellRun

open Cert.KernelIdeal Cert.KernelIdeal.Gen Cert.KernelIdeal.Cell Cert.KernelIdeal.CellValue Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block indices over the grid: the row blocks move with the point, everything else stands at zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt32 (t : Fin cfg0.N) : t.val < 32 := lt_of_lt_of_eq t.isLt N_0

/-- Row p of point t's block is row 256·t + p of the array. -/
abbrev row (t : Fin cfg0.N) (p : Fin 256) : Fin 8192 := ⟨t.val * 256 + p.val, by have := lt32 t; omega⟩

/-! ## The blocks read, entry by entry -/

theorem read_hx (c : Dev nD) (t : Fin cfg0.N) (p : Fin 256) (κ : Fin 2048) :
    iblk m c 0 t (ix2 p κ) = V m c main_v1 (ix2 (row t p) κ) := by
  obtain ⟨e0, e1, -⟩ := idx_facts t
  show V m c main_v1 (((cfg0.win 0).blk t).view.emb (ix2 p κ)) = _
  have he : ((cfg0.win 0).blk t).view.emb (ix2 p κ) = ix2 (row t p) κ := by
    funext a; apply Fin.ext
    match a with
    | ⟨0, _⟩ => show win0_0.index t (0 : Fin 2) * 256 + 1 * p.val = t.val * 256 + p.val; omega
    | ⟨1, _⟩ => show win0_0.index t (1 : Fin 2) * 2048 + 1 * κ.val = κ.val; omega
  rw [he]

theorem read_w (c : Dev nD) (t : Fin cfg0.N) (κ : Fin 2048) (k : Fin 4096) :
    iblk m c 1 t (ix2 κ k) = V m c main_v3 (ix2 κ k) := by
  obtain ⟨-, -, e0, e1, -⟩ := idx_facts t
  show V m c main_v3 (((cfg0.win 1).blk t).view.emb (ix2 κ k)) = _
  have he : ((cfg0.win 1).blk t).view.emb (ix2 κ k) = ix2 κ k := by
    funext a; apply Fin.ext
    match a with
    | ⟨0, _⟩ => show win0_1.index t (0 : Fin 2) * 2048 + 1 * κ.val = κ.val; omega
    | ⟨1, _⟩ => show win0_1.index t (1 : Fin 2) * 4096 + 1 * k.val = k.val; omega
  rw [he]

theorem read_b (c : Dev nD) (t : Fin cfg0.N) (k : Fin 4096) :
    iblk m c 2 t (ix1 k) = V m c main_v4 (ix1 k) := by
  obtain ⟨-, -, -, -, e0, -⟩ := idx_facts t
  show V m c main_v4 (((cfg0.win 2).blk t).view.emb (ix1 k)) = _
  have he : ((cfg0.win 2).blk t).view.emb (ix1 k) = ix1 k := by
    funext a; apply Fin.ext
    match a with
    | ⟨0, _⟩ => show win0_2.index t (0 : Fin 1) * 4096 + 1 * k.val = k.val; omega
  rw [he]

theorem read_c (c : Dev nD) (t : Fin cfg0.N) (p : Fin 256) (j : Fin 1024) :
    iblk m c 3 t (ix2 p j) = V m c main_arg2 (ix2 (row t p) j) := by
  obtain ⟨-, -, -, -, -, e0, e1, -⟩ := idx_facts t
  show V m c main_arg2 (((cfg0.win 3).blk t).view.emb (ix2 p j)) = _
  have he : ((cfg0.win 3).blk t).view.emb (ix2 p j) = ix2 (row t p) j := by
    funext a; apply Fin.ext
    match a with
    | ⟨0, _⟩ => show win0_3.index t (0 : Fin 2) * 256 + 1 * p.val = t.val * 256 + p.val; omega
    | ⟨1, _⟩ => show win0_3.index t (1 : Fin 2) * 1024 + 1 * j.val = j.val; omega
  rw [he]

/-- Where entry (p, j) of point t's block of a result lies in the result's array. -/
theorem emb_h (t : Fin cfg0.N) (p : Fin 256) (j : Fin 1024) :
    ((cfg0.win 4).blk t).view.emb (ix2 p j) = ix2 (row t p) j := by
  obtain ⟨-, -, -, -, -, -, -, e0, e1, -⟩ := idx_facts t
  funext a; apply Fin.ext
  match a with
  | ⟨0, _⟩ => show win0_4.index t (0 : Fin 2) * 256 + 1 * p.val = t.val * 256 + p.val; omega
  | ⟨1, _⟩ => show win0_4.index t (1 : Fin 2) * 1024 + 1 * j.val = j.val; omega
theorem emb_c (t : Fin cfg0.N) (p : Fin 256) (j : Fin 1024) :
    ((cfg0.win 5).blk t).view.emb (ix2 p j) = ix2 (row t p) j := by
  obtain ⟨-, -, -, -, -, -, -, -, -, e0, e1⟩ := idx_facts t
  funext a; apply Fin.ext
  match a with
  | ⟨0, _⟩ => show win0_5.index t (0 : Fin 2) * 256 + 1 * p.val = t.val * 256 + p.val; omega
  | ⟨1, _⟩ => show win0_5.index t (1 : Fin 2) * 1024 + 1 * j.val = j.val; omega

/-! ## What each point writes back -/

/-- The launch's four operands as it finds them. -/
abbrev opHX (c : Dev nD) : FVec Ideal S8192x2048 .bf16 := V m c main_v1
abbrev opW (c : Dev nD) : FVec Ideal S2048x4096 .bf16 := V m c main_v3
abbrev opB (c : Dev nD) : FVec Ideal S4096 .f32 := V m c main_v4
abbrev opC (c : Dev nD) : FVec Ideal S8192x1024 .f32 := V m c main_arg2

theorem flushed_h (c : Dev nD) (t : Fin cfg0.N) :
    (dats m 0 c).flushed 4 t = ((cfg0.win 4).blk t).view.read (Elt Ideal) (hArr (opHX m c) (opW m c) (opB m c) (opC m c)) := by
  show (cfg0.win 4).cut (grid0.coords t) ((dats m 0 c).after 4 t) = _
  rw [after_4]
  unfold hBlock
  rw [View.canon_unit_zero hz2]
  simp only [View.ld_unit_zero (S := S256x2048) hz2, View.ld_unit_zero (S := S2048x4096) hz2, View.ld_unit_zero (S := S4096) hz1,
    View.ld_unit_zero (S := S256x1024) hz2]
  funext y
  obtain ⟨p, j, rfl⟩ : ∃ (p : Fin 256) (j : Fin 1024), y = ix2 p j := ⟨y 0, y 1, eq_ix2 y⟩
  refine (pay3_apply (iblk m c 0 t) (iblk m c 1 t) (iblk m c 2 t) (iblk m c 3 t) p j).trans ?_
  show _ = hArr (opHX m c) (opW m c) (opB m c) (opC m c) (((cfg0.win 4).blk t).view.emb (ix2 p j))
  rw [emb_h]
  exact hNext_congr (fun κ => read_hx m c t p κ) (fun κ k => read_w m c t κ k) (fun k => read_b m c t k) j (read_c m c t p j)

theorem flushed_c (c : Dev nD) (t : Fin cfg0.N) :
    (dats m 0 c).flushed 5 t = ((cfg0.win 5).blk t).view.read (Elt Ideal) (cArr (opHX m c) (opW m c) (opB m c) (opC m c)) := by
  show (cfg0.win 5).cut (grid0.coords t) ((dats m 0 c).after 5 t) = _
  rw [after_5]
  unfold cBlock
  rw [View.canon_unit_zero hz2]
  simp only [View.ld_unit_zero (S := S256x2048) hz2, View.ld_unit_zero (S := S2048x4096) hz2, View.ld_unit_zero (S := S4096) hz1,
    View.ld_unit_zero (S := S256x1024) hz2]
  funext y
  obtain ⟨p, j, rfl⟩ : ∃ (p : Fin 256) (j : Fin 1024), y = ix2 p j := ⟨y 0, y 1, eq_ix2 y⟩
  refine (pay2_apply (iblk m c 0 t) (iblk m c 1 t) (iblk m c 2 t) (iblk m c 3 t) p j).trans ?_
  show _ = cArr (opHX m c) (opW m c) (opB m c) (opC m c) (((cfg0.win 5).blk t).view.emb (ix2 p j))
  rw [emb_c]
  exact cNext_congr (fun κ => read_hx m c t p κ) (fun κ k => read_w m c t κ k) (fun k => read_b m c t k) j (read_c m c t p j)

/-! ## The 32 blocks of 256 rows tile the 8192 rows -/

theorem mem_blk_h (t : Fin cfg0.N) (i : S8192x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v5_0).slice (win0_4.rect t)).set ↔ _
  rw [View.set_slice_whole, Rect.mem_set_unit]
  exact Iff.rfl
theorem mem_blk_c (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5_1).slice (win0_5.rect t)).set ↔ _
  rw [View.set_slice_whole, Rect.mem_set_unit]
  exact Iff.rfl

/-- The point whose block holds row r is r / 256. -/
theorem cover_h (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  let t : Fin cfg0.N := ⟨(i 0).val / 256, by rw [show cfg0.N = 32 from N_0]; omega⟩
  obtain ⟨-, -, -, -, -, -, -, e0, e1, -⟩ := idx_facts t
  have ht : t.val = (i 0).val / 256 := rfl
  refine ⟨t, flush0_4 t, ?_⟩
  rw [mem_blk_h]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega
theorem cover_c (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  let t : Fin cfg0.N := ⟨(i 0).val / 256, by rw [show cfg0.N = 32 from N_0]; omega⟩
  obtain ⟨-, -, -, -, -, -, -, -, -, e0, e1⟩ := idx_facts t
  have ht : t.val = (i 0).val / 256 := rfl
  refine ⟨t, flush0_5 t, ?_⟩
  rw [mem_blk_c]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- The two results after the run, as the cell's value of the launch's operands. -/
theorem final_h (c : Dev nD) : (dats m 0 c).arrAt 4 cfg0.N = hArr (opHX m c) (opW m c) (opB m c) (opC m c) :=
  (dats m 0 c).arrAt_eq_of_cover 4 (hArr (opHX m c) (opW m c) (opB m c) (opC m c)) (fun t _ => flushed_h m c t) cover_h
theorem final_c (c : Dev nD) : (dats m 0 c).arrAt 5 cfg0.N = cArr (opHX m c) (opW m c) (opB m c) (opC m c) :=
  (dats m 0 c).arrAt_eq_of_cover 5 (cArr (opHX m c) (opW m c) (opB m c) (opC m c)) (fun t _ => flushed_c m c t) cover_c

/-! ## The launch's operands are the joined arguments -/

theorem opHX_eq (c : Dev nD) : opHX m c = joinRows (m ((c : Thread nD τ).loc main_arg1)) (m ((c : Thread nD τ).loc main_arg0)) := by
  have e : (V m c main_v1 : S8192x2048.Idx → EReal) = truncf (F := Ideal) .bf16
      (concatenate S8192x2048 1 [⟨S8192x1024, m ((c : Thread nD τ).loc main_arg1)⟩, ⟨S8192x1024, m ((c : Thread nD τ).loc main_arg0)⟩]
        concatenates_S8192x1024_S8192x1024_S8192x2048_d1) bitsLt_bf16_f32 := by
    dsimp only [V, hostOps0]; after_results <;> rfl
  exact e
theorem opW_eq (c : Dev nD) : opW m c = joinWeights (m ((c : Thread nD τ).loc main_arg3)) (m ((c : Thread nD τ).loc main_arg5))
    (m ((c : Thread nD τ).loc main_arg7)) (m ((c : Thread nD τ).loc main_arg9)) := by
  have e : (V m c main_v3 : S2048x4096.Idx → EReal) = truncf (F := Ideal) .bf16
      (concatenate S2048x4096 1 [⟨S2048x1024, m ((c : Thread nD τ).loc main_arg3)⟩, ⟨S2048x1024, m ((c : Thread nD τ).loc main_arg5)⟩,
        ⟨S2048x1024, m ((c : Thread nD τ).loc main_arg7)⟩, ⟨S2048x1024, m ((c : Thread nD τ).loc main_arg9)⟩]
        concatenates_S2048x1024_S2048x1024_S2048x1024_S2048x1024_S2048x4096_d1) bitsLt_bf16_f32 := by
    dsimp only [V, hostOps0]; after_results <;> rfl
  exact e
theorem opB_eq (c : Dev nD) : opB m c = joinBias (m ((c : Thread nD τ).loc main_arg4)) (m ((c : Thread nD τ).loc main_arg6))
    (m ((c : Thread nD τ).loc main_arg8)) (m ((c : Thread nD τ).loc main_arg10)) := by
  have e : (V m c main_v4 : S4096.Idx → EReal) =
      concatenate S4096 0 [⟨S1024, m ((c : Thread nD τ).loc main_arg4)⟩, ⟨S1024, m ((c : Thread nD τ).loc main_arg6)⟩,
        ⟨S1024, m ((c : Thread nD τ).loc main_arg8)⟩, ⟨S1024, m ((c : Thread nD τ).loc main_arg10)⟩]
        concatenates_S1024_S1024_S1024_S1024_S4096_d0 := by
    dsimp only [V, hostOps0]; after_results <;> rfl
  exact e
theorem opC_eq (c : Dev nD) : opC m c = m ((c : Thread nD τ).loc main_arg2) :=
  V_main_arg m c main_arg2 (by decide) (by decide) (by decide) (by decide) (by decide)

/-! ## The run, read -/

/-- Every weakly fair execution ends with the two results at the cell's values of the arguments, the arguments as given. -/
theorem run : θ_run defs (onTc (τ := τ) (main (F := Ideal))) ⟨m, fun _ => 0, ρ⟩ fun r => ∀ c : Dev nD,
      r.2.mem ((c : Thread nD τ).loc main_v5_0) = hResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v5_1) = cResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨
      (((h c).1 4).trans (final_h m c)).trans (by rw [opHX_eq, opW_eq, opB_eq, opC_eq]; rfl),
      (((h c).1 5).trans (final_c m c)).trans (by rw [opHX_eq, opW_eq, opB_eq, opC_eq]; rfl),
      ((h c).2 main_arg0 (Pipeline.mem_restRefs_of main_arg0 (by decide) (by decide))).trans (V_main_arg m c main_arg0 (by decide) (by decide) (by decide) (by decide) (by decide)),
      ((h c).2 main_arg1 (Pipeline.mem_restRefs_of main_arg1 (by decide) (by decide))).trans (V_main_arg m c main_arg1 (by decide) (by decide) (by decide) (by decide) (by decide)),
      ((h c).1 3).trans (((dats m 0 c).arrAt_in 3 rfl _).trans ((A_eq m c 3).trans (V_main_arg m c main_arg2 (by decide) (by decide) (by decide) (by decide) (by decide)))),
      ((h c).2 main_arg3 (Pipeline.mem_restRefs_of main_arg3 (by decide) (by decide))).trans (V_main_arg m c main_arg3 (by decide) (by decide) (by decide) (by decide) (by decide)),
      ((h c).2 main_arg4 (Pipeline.mem_restRefs_of main_arg4 (by decide) (by decide))).trans (V_main_arg m c main_arg4 (by decide) (by decide) (by decide) (by decide) (by decide)),
      ((h c).2 main_arg5 (Pipeline.mem_restRefs_of main_arg5 (by decide) (by decide))).trans (V_main_arg m c main_arg5 (by decide) (by decide) (by decide) (by decide) (by decide)),
      ((h c).2 main_arg6 (Pipeline.mem_restRefs_of main_arg6 (by decide) (by decide))).trans (V_main_arg m c main_arg6 (by decide) (by decide) (by decide) (by decide) (by decide)),
      ((h c).2 main_arg7 (Pipeline.mem_restRefs_of main_arg7 (by decide) (by decide))).trans (V_main_arg m c main_arg7 (by decide) (by decide) (by decide) (by decide) (by decide)),
      ((h c).2 main_arg8 (Pipeline.mem_restRefs_of main_arg8 (by decide) (by decide))).trans (V_main_arg m c main_arg8 (by decide) (by decide) (by decide) (by decide) (by decide)),
      ((h c).2 main_arg9 (Pipeline.mem_restRefs_of main_arg9 (by decide) (by decide))).trans (V_main_arg m c main_arg9 (by decide) (by decide) (by decide) (by decide) (by decide)),
      ((h c).2 main_arg10 (Pipeline.mem_restRefs_of main_arg10 (by decide) (by decide))).trans (V_main_arg m c main_arg10 (by decide) (by decide) (by decide) (by decide) (by decide))⟩)
    (run_main m ρ)

end Cert.KernelIdeal.CellRun

end
-- ==== Proof.RefValue.lean ====
/-
  The reference's two results are the cell's.

  The reference forms the same three joined arrays, takes their product and adds the biases laid out as one row and
  repeated down the rows: at (r, k) that is the pre-activation of the cell. It cuts the four gates out as column
  slices, and spells the logistic function out as 1 / (1 + exp (−y)), which on the extended reals is the logistic
  function at every y, the infinities included; its tanh is the same tanh. So its new cell state and new hidden state
  are, entry by entry, c' and h' of the joined arrays.
-/
import proofs.«177262_j39599598469282_1_alg».proof.Proof.Gen.ReferenceIdeal.Read
import proofs.«177262_j39599598469282_1_alg».proof.Proof.Spec
import proofs.«177262_j39599598469282_1_alg».proof.Proof.LibPlainDot
import Idealize.ShloMosaic.PureOps.IdealRules
import Idealize.ShloMosaic.Lib.ValueLayout

noncomputable section

namespace Cert.ReferenceIdeal.CellRef

open Cert.ReferenceIdeal Cert.ReferenceIdeal.Gen Cert.ReferenceIdeal.Read Cert.LstmCell
open Idealize.ShloMosaic Idealize.ShloMosaic.ValueIdx

/-- The literal 1.0 is the real number 1. -/
theorem one_f32 : FloatOps.ofBits (F := Ideal) .f32 0x3F800000#32 = (1 : EReal) := IdealRules.sign_bit.ideal_onePat .f32

/-- 1 / (1 + exp (−y)), in the host's operations, is the logistic function of y. -/
theorem sigmoid_spelled (y : EReal) :
    FloatOps.hostDivf (F := Ideal) (φ := .f32) (FloatOps.ofBits .f32 0x3F800000#32)
      (FloatOps.addf (FloatOps.ofBits .f32 0x3F800000#32) (FloatOps.hostUnary .exp (FloatOps.hostNegf y))) = Ideal.logistic y := by
  rw [one_f32]; rfl

/-- The reference's product is a plain one. -/
theorem dot_plain : Cert.PlainDot.Plain dot_S8192x2048_S2048x4096_S8192x4096_1_0_0_1_n_n := ⟨rfl, rfl, rfl, rfl, rfl, rfl⟩

variable (x0 x1 x2 : (⟨S8192x1024, .f32⟩ : BufTy).Contents (Elt Ideal))
  (x3 : (⟨S2048x1024, .f32⟩ : BufTy).Contents (Elt Ideal)) (x4 : (⟨S1024, .f32⟩ : BufTy).Contents (Elt Ideal))
  (x5 : (⟨S2048x1024, .f32⟩ : BufTy).Contents (Elt Ideal)) (x6 : (⟨S1024, .f32⟩ : BufTy).Contents (Elt Ideal))
  (x7 : (⟨S2048x1024, .f32⟩ : BufTy).Contents (Elt Ideal)) (x8 : (⟨S1024, .f32⟩ : BufTy).Contents (Elt Ideal))
  (x9 : (⟨S2048x1024, .f32⟩ : BufTy).Contents (Elt Ideal)) (x10 : (⟨S1024, .f32⟩ : BufTy).Contents (Elt Ideal))

/-- The reference's gate array at (r, k) is the pre-activation. -/
theorem gates_apply (r : Fin 8192) (k : Fin 4096) :
    val_main_v6 (F := Ideal) x0 x1 x3 x4 x5 x6 x7 x8 x9 x10 (ix2 r k)
      = pre (φ₁ := .f32) (φ₂ := .f32) (joinRows x1 x0) (joinWeights x3 x5 x7 x9) (joinBias x4 x6 x8 x10) r k := by
  rw [val_main_v6_apply, val_main_v5_apply, val_main_v4_apply]
  have eb : idx_main_v4 (idx_main_v5 (ix2 r k)) = ix1 k := funext fun a => by match a with | ⟨0, _⟩ => rfl
  rw [eb]
  unfold val_main_v3 pre
  rw [Cert.PlainDot.dotGeneral_apply dot_plain rfl rfl]
  rfl

/-- The four gate slices at (r, j). -/
theorem slice0 (r : Fin 8192) (j : Fin 1024) : idx_main_v7 (ix2 r j) = ix2 r (col 0 j) :=
  funext fun a => Fin.ext (by match a with | ⟨0, _⟩ => rfl | ⟨1, _⟩ => show j.val = 0 * 1024 + j.val; omega)
theorem slice1 (r : Fin 8192) (j : Fin 1024) : idx_main_v8 (ix2 r j) = ix2 r (col 1 j) :=
  funext fun a => Fin.ext (by match a with | ⟨0, _⟩ => rfl | ⟨1, _⟩ => show 1024 + j.val = 1 * 1024 + j.val; omega)
theorem slice2 (r : Fin 8192) (j : Fin 1024) : idx_main_v9 (ix2 r j) = ix2 r (col 2 j) :=
  funext fun a => Fin.ext (by match a with | ⟨0, _⟩ => rfl | ⟨1, _⟩ => show 2048 + j.val = 2 * 1024 + j.val; omega)
theorem slice3 (r : Fin 8192) (j : Fin 1024) : idx_main_v10 (ix2 r j) = ix2 r (col 3 j) :=
  funext fun a => Fin.ext (by match a with | ⟨0, _⟩ => rfl | ⟨1, _⟩ => show 3072 + j.val = 3 * 1024 + j.val; omega)

/-- The forget gate, the input gate and the output gate, each spelled out, and the candidate. -/
theorem forget_apply (r : Fin 8192) (j : Fin 1024) :
    val_main_v16 (F := Ideal) x0 x1 x3 x4 x5 x6 x7 x8 x9 x10 (ix2 r j)
      = Ideal.logistic (pre (φ₁ := .f32) (φ₂ := .f32) (joinRows x1 x0) (joinWeights x3 x5 x7 x9) (joinBias x4 x6 x8 x10) r (col 0 j)) := by
  rw [val_main_v16_apply, val_main_v15_apply, val_main_cst_0_apply, val_main_v14_apply, val_main_v13_apply, val_main_cst_apply,
    val_main_v12_apply, val_main_v11_apply, val_main_v7_apply, slice0, gates_apply, sigmoid_spelled]

theorem input_apply (r : Fin 8192) (j : Fin 1024) :
    val_main_v22 (F := Ideal) x0 x1 x3 x4 x5 x6 x7 x8 x9 x10 (ix2 r j)
      = Ideal.logistic (pre (φ₁ := .f32) (φ₂ := .f32) (joinRows x1 x0) (joinWeights x3 x5 x7 x9) (joinBias x4 x6 x8 x10) r (col 1 j)) := by
  rw [val_main_v22_apply, val_main_v21_apply, val_main_cst_2_apply, val_main_v20_apply, val_main_v19_apply, val_main_cst_1_apply,
    val_main_v18_apply, val_main_v17_apply, val_main_v8_apply, slice1, gates_apply, sigmoid_spelled]

theorem candidate_apply (r : Fin 8192) (j : Fin 1024) :
    val_main_v23 (F := Ideal) x0 x1 x3 x4 x5 x6 x7 x8 x9 x10 (ix2 r j)
      = Ideal.tanh (pre (φ₁ := .f32) (φ₂ := .f32) (joinRows x1 x0) (joinWeights x3 x5 x7 x9) (joinBias x4 x6 x8 x10) r (col 2 j)) := by
  rw [val_main_v23_apply, val_main_v9_apply, slice2, gates_apply]
  rfl

theorem output_apply (r : Fin 8192) (j : Fin 1024) :
    val_main_v29 (F := Ideal) x0 x1 x3 x4 x5 x6 x7 x8 x9 x10 (ix2 r j)
      = Ideal.logistic (pre (φ₁ := .f32) (φ₂ := .f32) (joinRows x1 x0) (joinWeights x3 x5 x7 x9) (joinBias x4 x6 x8 x10) r (col 3 j)) := by
  rw [val_main_v29_apply, val_main_v28_apply, val_main_cst_4_apply, val_main_v27_apply, val_main_v26_apply, val_main_cst_3_apply,
    val_main_v25_apply, val_main_v24_apply, val_main_v10_apply, slice3, gates_apply, sigmoid_spelled]

/-- The reference's new cell state is the cell's. -/
theorem cell_eq : val_main_v32 (F := Ideal) x0 x1 x2 x3 x4 x5 x6 x7 x8 x9 x10 = cResult x0 x1 x2 x3 x4 x5 x6 x7 x8 x9 x10 := by
  funext i
  obtain ⟨r, j, rfl⟩ : ∃ (r : Fin 8192) (j : Fin 1024), i = ix2 r j := ⟨i 0, i 1, eq_ix2 i⟩
  rw [val_main_v32_apply, val_main_v30_apply, val_main_v31_apply, forget_apply, input_apply, candidate_apply]
  rfl

/-- The reference's new hidden state is the cell's. -/
theorem hidden_eq : val_main_v34 (F := Ideal) x0 x1 x2 x3 x4 x5 x6 x7 x8 x9 x10 = hResult x0 x1 x2 x3 x4 x5 x6 x7 x8 x9 x10 := by
  funext i
  obtain ⟨r, j, rfl⟩ : ∃ (r : Fin 8192) (j : Fin 1024), i = ix2 r j := ⟨i 0, i 1, eq_ix2 i⟩
  rw [val_main_v34_apply, val_main_v33_apply, output_apply, congrFun (cell_eq x0 x1 x2 x3 x4 x5 x6 x7 x8 x9 x10) (ix2 r j)]
  rfl

end Cert.ReferenceIdeal.CellRef

end
-- ==== Proof.lean ====
/-
  A single step of an LSTM cell over a batch of 8192 rows, hidden width 1024.

  Both programs join h and x along the columns, join the four gates' weight matrices along the columns and the four
  biases end to end, multiply the joined input by the joined weights and add the biases; the four 1024-column
  slices of the product are the forget, input, candidate and output gates, and with σ the logistic function

      c' = σ(forget) · c + σ(input) · tanh(candidate),      h' = σ(output) · tanh(c').

  The kernel rounds the two joined operands to a narrower format before the product — the identity on the extended
  reals — and computes 256 rows at each of 32 points, with the logistic function as one operation. The reference
  computes all 8192 rows at once and spells the logistic function 1 / (1 + exp (−y)); on the extended reals that
  is the logistic function at every y. A row of c' and h' depends on that row of [h | x] and c only, and the 32 blocks
  of 256 rows tile the batch, so the kernel's two results are the reference's, entry by entry. No law of arithmetic
  beyond these identities is used, so the inputs' finiteness is not needed.

  The frames: the five host lines before the launch write none of the arguments, the launch's body stores only into
  its two results' blocks, and the only argument the launch stages, the cell state, is an input it never writes back.
-/
import proofs.«177262_j39599598469282_1_alg».proof.Defs
import proofs.«177262_j39599598469282_1_alg».proof.Proof.Gen.Kernel
import proofs.«177262_j39599598469282_1_alg».proof.Proof.Gen.KernelIdeal
import proofs.«177262_j39599598469282_1_alg».proof.Proof.Gen.ReferenceIdeal
import proofs.«177262_j39599598469282_1_alg».proof.Proof.Gen.Pre_finite_inputs
import proofs.«177262_j39599598469282_1_alg».proof.Proof.BitsCell
import proofs.«177262_j39599598469282_1_alg».proof.Proof.IdealValue
import proofs.«177262_j39599598469282_1_alg».proof.Proof.RefValue
import Idealize.ShloMosaic.Adequacy
import Idealize.ShloMosaic.Init

noncomputable section

namespace Cert.Proof

open Idealize.ShloMosaic Idealize.ShloMosaic.TcCoe Idealize.SL.Sem Cert.LstmCell

/-- The word-level program runs to the end and leaves its arguments as given. -/
theorem frame_k : Cert.frame_Kernel := fun m ρ _ => Cert.Kernel.Cell.frame m ρ

/-- So does the idealized program. -/
theorem frame_ki : Cert.frame_KernelIdeal := fun m ρ _ => Cert.KernelIdeal.Cell.frame m ρ

/-- The reference is host lines only: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the arguments both programs end with the new hidden state (returned twice) and the
    new cell state at the cell's values of the arguments. -/
theorem algebraic : Cert.algebraic_KernelIdeal_ReferenceIdeal := by
  intro m ρ m' ρ' _ hagree
  refine ⟨fun c => hResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => hResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => cResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1, (h c).1, (h c).2.1, (h c).2.2⟩)
      (Cert.KernelIdeal.CellRun.run m ρ)
  · refine (θ_run Cert.ReferenceIdeal.defs _ _).mono (fun r h c => ?_) (Cert.ReferenceIdeal.Value.run (F := Ideal) m' ρ')
    obtain ⟨a0, a1, a2, a3, a4, a5, a6, a7, a8, a9, a10⟩ := hagree c
    have hh : r.2.mem ((c.tc : Thread Cert.ReferenceIdeal.nD Cert.ReferenceIdeal.τ).loc Cert.ReferenceIdeal.main_v34)
        = hResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
      refine ((h c).1.trans ((Cert.ReferenceIdeal.Read.val_main_v34_eq (F := Ideal) m' c).trans
        (Cert.ReferenceIdeal.CellRef.hidden_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))))).trans ?_
      rw [a0, a1, a2, a3, a4, a5, a6, a7, a8, a9, a10]
    have hc : r.2.mem ((c.tc : Thread Cert.ReferenceIdeal.nD Cert.ReferenceIdeal.τ).loc Cert.ReferenceIdeal.main_v32)
        = cResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
      refine ((h c).2.2.1.trans ((Cert.ReferenceIdeal.Read.val_main_v32_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans
        (Cert.ReferenceIdeal.CellRef.cell_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))))).trans ?_
      rw [a0, a1, a2, a3, a4, a5, a6, a7, a8, a9, a10]
    exact ⟨hh, hh, hc, (h c).2.2.2⟩

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
